-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S20x128 : Shape := ⟨2, ![20, 128]⟩
abbrev S20 : Shape := ⟨1, ![20]⟩
abbrev S1x20 : Shape := ⟨2, ![1, 20]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S20x128 : S_.BroadcastsInDim S20x128 (![] : Fin 0 → Fin S20x128.rank)
  reducesTo_S20x128_S_d0_1 : S20x128.ReducesTo [0, 1] S_
  bcast_S_S20 : S_.BroadcastsInDim S20 (![] : Fin 0 → Fin S20.rank)
  reducesTo_S20_S_d0 : S20.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S20x128 .f32) (main_arg9 : FVec F S20 .f32) (main_arg10 : FVec F S1x20 .f32) (main_arg11 : FVec F S1 .f32) (main_v33 : IVec S_ 1) : IVec S_ 1 :=
  let main_v34 : FVec F S20x128 .f32 := Host.absf main_arg8
  let main_cst_12 : FVec F S_ .f32 := constant S_ .f32 0x7F800000#32
  let main_v35 : FVec F S20x128 .f32 := broadcastInDim S20x128 ![] bcast_S_S20x128 main_cst_12
  let main_v36 : IVec S20x128 1 := cmpf .olt main_v34 main_v35
  let main_c_13 : IVec S_ 1 := constantI S_ 1 1#1
  let main_v37 : IVec S_ 1 := (fun x v => Host.reduce IntOp.andi x v reducesTo_S20x128_S_d0_1 h_S_) main_v36 main_c_13
  let main_v38 : IVec S_ 1 := andi main_v33 main_v37
  let main_v39 : FVec F S20 .f32 := Host.absf main_arg9
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S1x20 .f32 := Host.absf main_arg10
  let main_cst_16 : FVec F S_ .f32 := constant S_ .f32 0x7F800000#32
  let main_v45 : FVec F S1x20 .f32 := broadcastInDim S1x20 ![] bcast_S_S1x20 main_cst_16
  let main_v46 : IVec S1x20 1 := cmpf .olt main_v44 main_v45
  let main_c_17 : IVec S_ 1 := constantI S_ 1 1#1
  let main_v47 : IVec S_ 1 := (fun x v => Host.reduce IntOp.andi x v reducesTo_S1x20_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S20x128 .f32) (main_arg9 : FVec F S20 .f32) (main_arg10 : FVec F S1x20 .f32) (main_arg11 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S20x128 .f32) (main_arg9 : FVec F S20 .f32) (main_arg10 : FVec F S1x20 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S20x128 : Shape := ⟨2, ![20, 128]⟩
abbrev S20 : Shape := ⟨1, ![20]⟩
abbrev S1x20 : Shape := ⟨2, ![1, 20]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S800000x128 : Shape := ⟨2, ![800000, 128]⟩
abbrev S1x1 : Shape := ⟨2, ![1, 1]⟩
abbrev S100000x1 : Shape := ⟨2, ![100000, 1]⟩
abbrev S5000x1 : Shape := ⟨2, ![5000, 1]⟩
abbrev S128x20 : Shape := ⟨2, ![128, 20]⟩
abbrev S5000x20 : Shape := ⟨2, ![5000, 20]⟩
abbrev S20x1 : Shape := ⟨2, ![20, 1]⟩

abbrev nBuf : Space → Nat
  | .hbm => 48
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S20x128, .f32⟩
  | .hbm, ⟨9, _⟩ => ⟨S20, .f32⟩
  | .hbm, ⟨10, _⟩ => ⟨S1x20, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S100000x64, .f32⟩
  | .hbm, ⟨27, _⟩ => ⟨S800000x1, .i32⟩
  | .hbm, ⟨28, _⟩ => ⟨S100000x64, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S100000x128, .f32⟩
  | .hbm, ⟨42, _⟩ => ⟨S800000x1, .i32⟩
  | .hbm, ⟨43, _⟩ => ⟨S100000x128, .f32⟩
  | .hbm, ⟨44, _⟩ => ⟨S1x128, .f32⟩
  | .hbm, ⟨45, _⟩ => ⟨S1x20, .f32⟩
  | .hbm, ⟨46, _⟩ => ⟨S1x1, .f32⟩
  | .hbm, ⟨47, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S20x128, .f32⟩
  | .local _ .vmem, ⟨17, _⟩ => ⟨S1x20, .f32⟩
  | .local _ .vmem, ⟨18, _⟩ => ⟨S1x20, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S20x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x20 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x64_p1_0_S64x128 : S128x64.Transposes [1, 0] S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S20_S1x20 : S20.ShapeCasts S1x20
  shapeCasts_S1_S1x1 : S1.ShapeCasts S1x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S20x128_S20x128_0_0 : ∀ a, (![0, 0] : Fin 2 → Nat) a + S20x128.size a ≤ S20x128.size a
  h_S20x128 : 0 < S20x128.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  transposes_S20x128_p1_0_S128x20 : S20x128.Transposes [1, 0] S128x20
  broadcasts_S1x20_S5000x20 : S1x20.Broadcasts S5000x20
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x20_p1_0_S20x1 : S1x20.Transposes [1, 0] S20x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x128_S5000x128_1_0_0_1_n_n_wf : DotDims.WF S5000x64 S64x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x20_S5000x20_1_0_0_1_n_n_wf : DotDims.WF S5000x128 S128x20 S5000x20 [1] [0] [0] [1] [] []
  dot_S5000x20_S20x1_S5000x1_1_0_0_1_n_n_wf : DotDims.WF S5000x20 S20x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x128.size a ≤ S20x128.size a
  hwx1_5 : ∀ i : grid1.Coords, EltTy.bits .f32 = 32 ∨ (Rect.block (s := S20x128) S20x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x20.size a ≤ S1x20.size a
  hwx1_6 : ∀ i : grid1.Coords, EltTy.bits .f32 = 32 ∨ (Rect.block (s := S1x20) S1x20.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x20.size a ≤ S1x20.size a
  hwx1_7 : ∀ i : grid1.Coords, EltTy.bits .f32 = 32 ∨ (Rect.block (s := S1x20) S1x20.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x20_S5000x20_1_0_0_1_n_n : DotDims S5000x128 S128x20 S5000x20 where
  lhsContracting := [1]
  rhsContracting := [0]
  lhsNonContracting := [0]
  rhsNonContracting := [1]
  lhsBatch := []
  rhsBatch := []
  wf := dot_S5000x128_S128x20_S5000x20_1_0_0_1_n_n_wf
def dot_S5000x20_S20x1_S5000x1_1_0_0_1_n_n : DotDims S5000x20 S20x1 S5000x1 where
  lhsContracting := [1]
  rhsContracting := [0]
  lhsNonContracting := [0]
  rhsNonContracting := [1]
  lhsBatch := []
  rhsBatch := []
  wf := dot_S5000x20_S20x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S20x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x20.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S1x20.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S20x128 : Shape := ⟨2, ![20, 128]⟩
abbrev S20 : Shape := ⟨1, ![20]⟩
abbrev S1x20 : Shape := ⟨2, ![1, 20]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S100000x128 : Shape := ⟨2, ![100000, 128]⟩
abbrev S1x128 : Shape := ⟨2, ![1, 128]⟩
abbrev S800000x128 : Shape := ⟨2, ![800000, 128]⟩
abbrev S128x20 : Shape := ⟨2, ![128, 20]⟩
abbrev S100000x20 : Shape := ⟨2, ![100000, 20]⟩
abbrev S20x1 : Shape := ⟨2, ![20, 1]⟩
abbrev S100000x1 : Shape := ⟨2, ![100000, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S20x128, .f32⟩
  | .hbm, ⟨9, _⟩ => ⟨S20, .f32⟩
  | .hbm, ⟨10, _⟩ => ⟨S1x20, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S100000x64, .f32⟩
  | .hbm, ⟨27, _⟩ => ⟨S800000x1, .i32⟩
  | .hbm, ⟨28, _⟩ => ⟨S100000x64, .f32⟩
  | .hbm, ⟨29, _⟩ => ⟨S64x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S64x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .i1⟩
  | .hbm, ⟨40, _⟩ => ⟨S_, .f32⟩
  | .hbm, ⟨41, _⟩ => ⟨S100000x128, .f32⟩
  | .hbm, ⟨42, _⟩ => ⟨S100000x128, .i1⟩
  | .hbm, ⟨43, _⟩ => ⟨S_, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x800000, .i32⟩
  | .hbm, ⟨53, _⟩ => ⟨S800000, .i32⟩
  | .hbm, ⟨54, _⟩ => ⟨S1x800000, .i32⟩
  | .hbm, ⟨55, _⟩ => ⟨S800000, .i32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S100000x128, .f32⟩
  | .hbm, ⟨67, _⟩ => ⟨S800000x1, .i32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S128x20, .f32⟩
  | .hbm, ⟨78, _⟩ => ⟨S100000x20, .f32⟩
  | .hbm, ⟨79, _⟩ => ⟨S1x20, .f32⟩
  | .hbm, ⟨80, _⟩ => ⟨S100000x20, .f32⟩
  | .hbm, ⟨81, _⟩ => ⟨S100000x20, .f32⟩
  | .hbm, ⟨82, _⟩ => ⟨S_, .f32⟩
  | .hbm, ⟨83, _⟩ => ⟨S100000x20, .f32⟩
  | .hbm, ⟨84, _⟩ => ⟨S100000x20, .f32⟩
  | .hbm, ⟨85, _⟩ => ⟨S20x1, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_cst_1 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v4 : Ref sig .tc := ⟨.hbm, 46, rfl⟩
abbrev main_call0_v5 : Ref sig .tc := ⟨.hbm, 47, rfl⟩
abbrev main_call0_cst_2 : Ref sig .tc := ⟨.hbm, 48, rfl⟩
abbrev main_call0_v6 : Ref sig .tc := ⟨.hbm, 49, rfl⟩
abbrev main_call0_v7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_1 : Ref sig .tc := ⟨.hbm, 56, rfl⟩
abbrev main_v27 : Ref sig .tc := ⟨.hbm, 57, rfl⟩
abbrev main_v28 : Ref sig .tc := ⟨.hbm, 58, rfl⟩
abbrev main_c_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call1_cst : Ref sig .tc := ⟨.hbm, 82, rfl⟩
abbrev main_call1_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S20x128_S128x20_1_0 : S20x128.Transposes [1, 0] S128x20
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  transposes_S1x20_S20x1_1_0 : S1x20.Transposes [1, 0] S20x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x20_S100000x20_1_0_0_1_n_n_wf : DotDims.WF S100000x128 S128x20 S100000x20 [1] [0] [0] [1] [] []
  dot_S100000x20_S20x1_S100000x1_1_0_0_1_n_n_wf : DotDims.WF S100000x20 S20x1 S100000x1 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf
def dot_S100000x20_S20x1_S100000x1_1_0_0_1_n_n : DotDims S100000x20 S20x1 S100000x1 where
  lhsContracting := [1]
  rhsContracting := [0]
  lhsNonContracting := [0]
  rhsNonContracting := [1]
  lhsBatch := []
  rhsBatch := []
  wf := dot_S100000x20_S20x1_S100000x1_1_0_0_1_n_n_wf

class Facts : Prop extends Facts₀ where

variable [Facts]
-- ==== Proof.Spec.lean ====
/-
  The mathematics both programs compute, written once over the extended reals, row by row.

  A two-layer graph convolution with a small dense head over N nodes. Write a·wᵀ for the matrix whose (r, j) entry is
  Σ_c a(r, c) · w(j, c). With agg the neighbour sums of a feature matrix x,

    conv(agg, x) (r, j) = (agg·w_relᵀ)(r, j) + (x·w_rootᵀ)(r, j) + b(j),

  the first layer is elu ∘ conv, the second conv alone, and the head is
  relu(h₂·w_fc1ᵀ + b_fc1)·w_fc2ᵀ + b_fc2. Every one of these is ROW-LOCAL in the node axis: entry (r, ·) of the result
  reads only row r of the node-indexed operands. That is why computing them tile by tile over the nodes gives the same
  array as computing them at once.

  elu(y) is y where y > 0 and exp(y) − 1 elsewhere; the other common spelling, 1 · expm1(y') with y' = 0 where y > 0
  and y elsewhere, is the same function on every extended real, −∞ included (`elu_eq_guarded`).
-/
import Idealize.ShloMosaic.PureOps.Ideal
import Idealize.ShloMosaic.Lib.ValueIdx

noncomputable section

open scoped BigOperators

namespace Cert.Spec

open Idealize.ShloMosaic Idealize.ShloMosaic.ValueIdx

/-- An m × n matrix of extended reals, indexed as the arrays are. -/
abbrev Mat (m n : Nat) : Type := (⟨2, ![m, n]⟩ : Shape).Idx → EReal

/-- The two float words the programs spell out: +0.0 and 1.0. -/
def zeroW : EReal := Ideal.ofBits .f32 0x00000000#32
def oneW : EReal := Ideal.ofBits .f32 0x3F800000#32

theorem oneW_eq : oneW = 1 := by
  unfold oneW
  simp [Ideal.ofBits, Ideal.ieee, -EReal.coe_mul]; norm_num

/-- Entry (r, j) of a·wᵀ. -/
def mulT {M K N : Nat} (a : Mat M K) (w : Mat N K) (r : Fin M) (j : Fin N) : EReal :=
  ∑ c : Fin K, a (ix2 r c) * w (ix2 j c)

/-- elu, as a comparison with +0.0 choosing between y and exp y − 1. -/
def elu (y : EReal) : EReal :=
  Scalar.select (Ideal.cmp .ogt y zeroW) y (Ideal.exp y - oneW)

/-- The guarded spelling: the exponential is taken of 0 where y > 0, and its result scaled by 1.0. -/
theorem elu_eq_guarded (y : EReal) :
    Scalar.select (Ideal.cmp .ogt y zeroW) y
        (oneW * (Ideal.exp (Scalar.select (Ideal.cmp .ogt y zeroW) zeroW y) - 1)) = elu y := by
  unfold elu
  by_cases h : Ideal.cmp .ogt y zeroW = 1#1
  · rw [h]; rfl
  · have h0 : Ideal.cmp .ogt y zeroW = 0#1 := eq_zero_of_ne_one h
    rw [h0, select_zero, select_zero, select_zero, oneW_eq, one_mul]

/-- The graph convolution before its activation, at (r, j). -/
def convAt {M K N : Nat} (agg x : Mat M K) (wrel wroot : Mat N K) (b : Fin N → EReal) (r : Fin M) (j : Fin N) : EReal :=
  mulT agg wrel r j + mulT x wroot r j + b j

/-- The same with the bias added before the root term: addition of extended reals is commutative and associative, so
    the two groupings agree with no finiteness assumption. -/
theorem convAt_regroup {M K N : Nat} (agg x : Mat M K) (wrel wroot : Mat N K) (b : Fin N → EReal) (r : Fin M) (j : Fin N) :
    mulT agg wrel r j + b j + mulT x wroot r j = convAt agg x wrel wroot b r j := by
  unfold convAt; exact add_right_comm _ _ _

/-- The convolution as a matrix. -/
def conv {M K N : Nat} (agg x : Mat M K) (wrel wroot : Mat N K) (b : Fin N → EReal) : Mat M N :=
  fun i => convAt agg x wrel wroot b (i 0) (i 1)

/-- The first layer: elu of the convolution. -/
def layer1 {M K N : Nat} (agg x : Mat M K) (wrel wroot : Mat N K) (b : Fin N → EReal) : Mat M N :=
  fun i => elu (convAt agg x wrel wroot b (i 0) (i 1))

/-- A dense layer a·wᵀ + b. -/
def lin {M K N : Nat} (a : Mat M K) (w : Mat N K) (b : Fin N → EReal) : Mat M N :=
  fun i => mulT a w (i 0) (i 1) + b (i 1)

/-- relu: the larger of the entry and +0.0. -/
def relu {M N : Nat} (a : Mat M N) : Mat M N := fun i => max (a i) zeroW

/-- The second convolution followed by the two dense layers of the head. -/
def head {M : Nat} (agg h : Mat M 128) (w2rel w2root : Mat 128 128) (b2 : Fin 128 → EReal)
    (wfc1 : Mat 20 128) (bfc1 : Fin 20 → EReal) (wfc2 : Mat 1 20) (bfc2 : EReal) : Mat M 1 :=
  lin (relu (lin (conv agg h w2rel w2root b2) wfc1 bfc1)) wfc2 (fun _ => bfc2)

theorem conv_ix2 {M K N : Nat} (agg x : Mat M K) (wrel wroot : Mat N K) (b : Fin N → EReal) (r : Fin M) (j : Fin N) :
    conv agg x wrel wroot b (ix2 r j) = convAt agg x wrel wroot b r j := rfl
theorem layer1_ix2 {M K N : Nat} (agg x : Mat M K) (wrel wroot : Mat N K) (b : Fin N → EReal) (r : Fin M) (j : Fin N) :
    layer1 agg x wrel wroot b (ix2 r j) = elu (convAt agg x wrel wroot b r j) := rfl
theorem lin_ix2 {M K N : Nat} (a : Mat M K) (w : Mat N K) (b : Fin N → EReal) (r : Fin M) (j : Fin N) :
    lin a w b (ix2 r j) = mulT a w r j + b j := rfl
theorem relu_ix2 {M N : Nat} (a : Mat M N) (r : Fin M) (j : Fin N) : relu a (ix2 r j) = max (a (ix2 r j)) zeroW := rfl

/-! ## Row-locality -/

/-- a·wᵀ at (r, j) reads only row r of a and row j of w. -/
theorem mulT_congr {M M' K N N' : Nat} {a : Mat M K} {a' : Mat M' K} {w : Mat N K} {w' : Mat N' K}
    {r : Fin M} {r' : Fin M'} {j : Fin N} {j' : Fin N'}
    (ha : ∀ c, a (ix2 r c) = a' (ix2 r' c)) (hw : ∀ c, w (ix2 j c) = w' (ix2 j' c)) :
    mulT a w r j = mulT a' w' r' j' :=
  Finset.sum_congr rfl fun c _ => by rw [ha c, hw c]

/-- The convolution at (r, j) reads only row r of the two node-indexed operands. -/
theorem convAt_congr {M M' K N : Nat} {agg x : Mat M K} {agg' x' : Mat M' K} (wrel wroot : Mat N K) (b : Fin N → EReal)
    {r : Fin M} {r' : Fin M'} (j : Fin N)
    (ha : ∀ c, agg (ix2 r c) = agg' (ix2 r' c)) (hx : ∀ c, x (ix2 r c) = x' (ix2 r' c)) :
    convAt agg x wrel wroot b r j = convAt agg' x' wrel wroot b r' j := by
  unfold convAt
  rw [mulT_congr ha (fun _ => rfl), mulT_congr hx (fun _ => rfl)]

/-- The head at (r, q) reads only row r of the two node-indexed operands. -/
theorem head_congr {M M' : Nat} {agg h : Mat M 128} {agg' h' : Mat M' 128} (w2rel w2root : Mat 128 128) (b2 : Fin 128 → EReal)
    (wfc1 : Mat 20 128) (bfc1 : Fin 20 → EReal) (wfc2 : Mat 1 20) (bfc2 : EReal) {r : Fin M} {r' : Fin M'} (q : Fin 1)
    (ha : ∀ c, agg (ix2 r c) = agg' (ix2 r' c)) (hh : ∀ c, h (ix2 r c) = h' (ix2 r' c)) :
    head agg h w2rel w2root b2 wfc1 bfc1 wfc2 bfc2 (ix2 r q) = head agg' h' w2rel w2root b2 wfc1 bfc1 wfc2 bfc2 (ix2 r' q) := by
  unfold head
  rw [lin_ix2, lin_ix2]
  congr 1
  refine mulT_congr (fun j => ?_) (fun _ => rfl)
  rw [relu_ix2, relu_ix2, lin_ix2, lin_ix2]
  congr 2
  refine mulT_congr (fun k => ?_) (fun _ => rfl)
  rw [conv_ix2, conv_ix2]
  exact convAt_congr w2rel w2root b2 k ha hh

end Cert.Spec

end
-- ==== Proof.KernelAgg.lean ====
/-
  The host operations the kernel's program runs between its two tiled regions, as named functions of the edge list:
  the same stages, in the same words, as the reference's (its RefTerm module): the rows of the edge list, the index
  columns, and the neighbour sums by a gather followed by a scatter-add into zeros.
-/
import proofs.«103470_j75625784148347_1_alg».proof.Proof.Gen.KernelIdeal

noncomputable section

namespace Cert.KernelIdeal.Val

open Idealize.ShloMosaic Cert.KernelIdeal Cert.KernelIdeal.Gen

variable {F : FTy → Type} [FloatOps F]

/-- Row 0 of the edge list (the sources) and row 1 (the destinations), each as a vector over the edges. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The gather's start indices: each source, a negative one counted from the end (s + 100000 where s < 0), as a column. -/
def srcIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 100000#32))) (edgeRow0 ei))
/-- The scatter's indices: each destination as it stands, as a column. -/
def dstIdx (ei : IVec S2x800000 32) : IVec S800000x1 32 :=
  broadcastInDim S800000x1 ![0] bcast_S800000_S800000x1_0 (edgeRow1 ei)

/-- The neighbour sums of a 64-column feature matrix: row src(e) of x gathered for every edge e and added into row
    dst(e) of a zero matrix. -/
def agg64 (x : FVec F S100000x64 .f32) (ei : IVec S2x800000 32) : FVec F S100000x64 .f32 :=
  Host.scatterAdd scatter_S100000x64_S800000x1_S800000x64_1_0_0_1
    (broadcastInDim S100000x64 ![] bcast_S_S100000x64 (constant S_ .f32 0x00000000#32)) (dstIdx ei)
    (Host.gather gather_S100000x64_S800000x1_S800000x64_1_0_n_n_0_1_164 x (srcIdx ei))
/-- The same for a 128-column feature matrix. -/
def agg128 (h : FVec F S100000x128 .f32) (ei : IVec S2x800000 32) : FVec F S100000x128 .f32 :=
  Host.scatterAdd scatter_S100000x128_S800000x1_S800000x128_1_0_0_1
    (broadcastInDim S100000x128 ![] bcast_S_S100000x128 (constant S_ .f32 0x00000000#32)) (dstIdx ei)
    (Host.gather gather_S100000x128_S800000x1_S800000x128_1_0_n_n_0_1_1128 h (srcIdx ei))

end Cert.KernelIdeal.Val

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernelValue0.lean ====
/-
  The first tiled region computes the first layer, tile by tile.

  The region walks 20 grid points. Point t sees rows 5000·t … 5000·t + 4999 of the two node-indexed arrays (the
  features x and the neighbour sums agg, both 100000 × 64), the whole of the two weight matrices (128 × 64) and of the
  bias row (1 × 128), and writes rows 5000·t … 5000·t + 4999 of the 100000 × 128 output.

  At one point the body stores, at entry (p, q) of its block,

    elu( Σ_k agg(p, k) · w_rel(q, k) + Σ_k x(p, k) · w_root(q, k) + b(q) ).

  Each product is taken of the operands rounded to a narrower format, which changes no ideal value, against the
  transposed weight, whose entry (k, q) is the weight's (q, k), into a zero accumulator: it is the plain sum over k.
  The bias row is repeated down the rows. The activation is the comparison with +0.0 choosing between the sum y and
  exp y − 1.0, which is the specification's elu as written. So the stored block is the specification's first layer of
  the loaded blocks (`pay_eq`).

  The first layer is row-local: entry (r, ·) reads only row r of agg and of x. Row p of point t's blocks is row
  5000·t + p of the arrays, and the weights' and the bias' blocks are the arrays themselves, so what point t writes
  back is block t of the first layer of the whole arrays (`flushed_eq`). Every row r lies in the block of point
  r / 5000, so the blocks cover the output array (`covered`), and the array after the region is that first layer
  (`final0`).
-/
import proofs.«103470_j75625784148347_1_alg».proof.Proof.Gen.KernelIdeal.Frame
import proofs.«103470_j75625784148347_1_alg».proof.Proof.Spec
import proofs.«103470_j75625784148347_1_alg».proof.Proof.LibMatmulPlain
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

set_option maxRecDepth 16384

noncomputable section

open scoped BigOperators

namespace Cert.KernelIdeal.Val0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry -/

/-- The product of a block of rows by a transposed weight matrix into the zero accumulator, read at (p, q), is the
    entry (p, q) of a·wᵀ: rounding the operands to the narrower format changes no ideal value, and the transposed
    weight at (k, q) is the weight at (q, k). -/
theorem matmulT_apply (a : Vec Ideal S5000x64 .f32) (w : Vec Ideal S128x64 .f32) (p : Fin 5000) (q : Fin 128) :
    matmul (F := Ideal) dot_S5000x64_S64x128_S5000x128_1_0_0_1_n_n none (truncf .bf16 a bitsLt_bf16_f32)
        (transpose S64x128 [1, 0] (truncf .bf16 w bitsLt_bf16_f32) transposes_S128x64_p1_0_S64x128)
        (constant S5000x128 .f32 0x00000000#32) (ix2 p q)
      = Cert.Spec.mulT a w p q := by
  refine (Cert.LibMatmulPlain.matmul_plain_zero_apply (m := 5000) (k := 64) (n := 128) none
    (truncf .bf16 a bitsLt_bf16_f32)
    (transpose S64x128 [1, 0] (truncf .bf16 w bitsLt_bf16_f32) transposes_S128x64_p1_0_S64x128) p q).trans ?_
  unfold Cert.Spec.mulT
  refine Finset.sum_congr rfl fun k _ => ?_
  rw [transpose_ix2_apply]
  rfl

/-- The sum the body forms before its activation, at (p, q): the convolution of the specification. -/
theorem pre_apply (x0 x1 : Vec Ideal S5000x64 .f32) (x2 x4 : Vec Ideal S128x64 .f32) (x3 : Vec Ideal S1x128 .f32)
    (p : Fin 5000) (q : Fin 128) :
    (addf
        (addf
          (matmul (F := Ideal) dot_S5000x64_S64x128_S5000x128_1_0_0_1_n_n none
            (truncf .bf16 (shapeCast S5000x64 x1 shapeCasts_S5000x64_S5000x64) bitsLt_bf16_f32)
            (transpose S64x128 [1, 0] (truncf .bf16 x2 bitsLt_bf16_f32) transposes_S128x64_p1_0_S64x128)
            (constant S5000x128 .f32 0x00000000#32))
          (matmul (F := Ideal) dot_S5000x64_S64x128_S5000x128_1_0_0_1_n_n none (truncf .bf16 x0 bitsLt_bf16_f32)
            (transpose S64x128 [1, 0] (truncf .bf16 x4 bitsLt_bf16_f32) transposes_S128x64_p1_0_S64x128)
            (constant S5000x128 .f32 0x00000000#32)))
        (broadcastTo S5000x128 (shapeCast S1x128 x3 shapeCasts_S1x128_S1x128) broadcasts_S1x128_S5000x128)) (ix2 p q)
      = Cert.Spec.convAt x1 x0 x2 x4 (fun j => x3 (ix2 0 j)) p q := by
  rw [shapeCast_self, shapeCast_self, addf_apply, addf_apply, matmulT_apply, matmulT_apply,
    Cert.LibMatmulPlain.rowBroadcast_apply]
  rfl

/-- The body's stored value is the first layer of its loaded blocks. -/
theorem pay_eq (x0 x1 : Vec Ideal S5000x64 .f32) (x2 x4 : Vec Ideal S128x64 .f32) (x3 : Vec Ideal S1x128 .f32) :
    k0_pay1 (F := Ideal) x0 x1 x2 x4 x3 = Cert.Spec.layer1 x1 x0 x2 x4 (fun j => x3 (ix2 0 j)) := by
  funext j
  obtain ⟨p, q, rfl⟩ : ∃ (p : Fin 5000) (q : Fin 128), j = ix2 p q := ⟨j 0, j 1, eq_ix2 j⟩
  rw [Cert.Spec.layer1_ix2, ← pre_apply x0 x1 x2 x4 x3 p q]
  unfold k0_pay1
  rfl

/-! ## From the blocks to the array -/

/-- The first layer of the arrays the region finds: what the output array is to hold. -/
abbrev L1 (c : Dev nD) : Cert.Spec.Mat 100000 128 :=
  Cert.Spec.layer1 (V c main_v13) (V c main_arg0) (V c main_arg2) (V c main_arg4) (fun j => V c main_v14 (ix2 0 j))

theorem origin2 : (![0, 0] : Fin 2 → Nat) = fun _ => 0 := funext fun a => by fin_cases a <;> rfl

/-- The printed index maps, decided over the 20 grid points: the two node-indexed inputs move with the output down
    the rows, the weights and the bias stay at their only block, and the output has a single block column. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block row of the output is some point's. -/
theorem block_row_onto : ∀ q0 : Fin 20, ∃ t : Fin cfg0.N, win0_5.index t = ![q0.val, 0] :=
  (by decide +kernel : ∀ q0 : Fin 20, ∃ t : Fin grid0.N, win0_5.index t = ![q0.val, 0])

/-- The first layer at entry (p, q) of a block of rows, from blocks that are restrictions of the arrays: row p of the
    two node-indexed blocks is row r of the arrays, and the weights' and the bias' blocks are the arrays themselves. -/
theorem layer1_of_blocks {M : Nat} (A X : Cert.Spec.Mat M 64) (A' X' : Cert.Spec.Mat 5000 64)
    (W R W' R' : Cert.Spec.Mat 128 64) (b b' : Fin 128 → EReal) (r : Fin M) (p : Fin 5000) (q q' : Fin 128)
    (hq : q' = q) (hA : ∀ k, A' (ix2 p k) = A (ix2 r k)) (hX : ∀ k, X' (ix2 p k) = X (ix2 r k))
    (hW : W' = W) (hR : R' = R) (hb : b' = b) :
    Cert.Spec.layer1 A' X' W' R' b' (ix2 p q) = Cert.Spec.elu (Cert.Spec.convAt A X W R b r q') := by
  subst hq hW hR hb
  rw [Cert.Spec.layer1_ix2]
  exact congrArg Cert.Spec.elu (Cert.Spec.convAt_congr W' R' b' q' hA hX)

/-- What point t writes back is block t of the first layer of the arrays. -/
theorem flushed_eq (c : Dev nD) (t : Fin cfg0.N) :
    (dat0 (F := Ideal) V c).flushed 5 t = ((cfg0.win 5).blk t).view.read (Elt Ideal) (L1 V c) := by
  show (cfg0.win 5).cut (grid0.coords t) ((dat0 (F := Ideal) V c).after 5 t) = _
  rw [after0_5]
  unfold out0_5
  rw [View.canon_unit_zero origin2]
  simp only [View.ld_unit_zero (S := S5000x64) origin2, View.ld_unit_zero (S := S128x64) origin2,
    View.ld_unit_zero (S := S1x128) origin2]
  rw [pay_eq]
  obtain ⟨e00, e01, e10, e11, e20, e21, e30, e31, e40, e41, e51⟩ := block_indices t
  funext j
  obtain ⟨p, q, rfl⟩ : ∃ (p : Fin 5000) (q : Fin 128), j = ix2 p q := ⟨j 0, j 1, eq_ix2 j⟩
  show Cert.Spec.layer1 (iblk0 V c 1 t) (iblk0 V c 0 t) (iblk0 V c 2 t) (iblk0 V c 4 t)
        (fun j => iblk0 V c 3 t (ix2 0 j)) (ix2 p q)
      = Cert.Spec.elu (Cert.Spec.convAt (V c main_v13) (V c main_arg0) (V c main_arg2) (V c main_arg4)
          (fun j => V c main_v14 (ix2 0 j))
          (((cfg0.win 5).blk t).view.emb (ix2 p q) 0) (((cfg0.win 5).blk t).view.emb (ix2 p q) 1))
  refine layer1_of_blocks _ _ _ _ _ _ _ _ _ _ _ p q _ ?_ ?_ ?_ ?_ ?_ ?_
  · apply Fin.ext
    show win0_5.index t (1 : Fin 2) * 128 + 1 * q.val = q.val
    omega
  · intro k
    show V c main_v13 (((cfg0.win 1).blk t).view.emb (ix2 p k)) = V c main_v13 (ix2 _ k)
    refine congrArg _ (funext fun a => Fin.ext ?_)
    match a with
    | ⟨0, _⟩ =>
      show win0_1.index t (0 : Fin 2) * 5000 + 1 * p.val = win0_5.index t (0 : Fin 2) * 5000 + 1 * p.val
      omega
    | ⟨1, _⟩ =>
      show win0_1.index t (1 : Fin 2) * 64 + 1 * k.val = k.val
      omega
  · intro k
    show V c main_arg0 (((cfg0.win 0).blk t).view.emb (ix2 p k)) = V c main_arg0 (ix2 _ k)
    refine congrArg _ (funext fun a => Fin.ext ?_)
    match a with
    | ⟨0, _⟩ =>
      show win0_0.index t (0 : Fin 2) * 5000 + 1 * p.val = win0_5.index t (0 : Fin 2) * 5000 + 1 * p.val
      omega
    | ⟨1, _⟩ =>
      show win0_0.index t (1 : Fin 2) * 64 + 1 * k.val = k.val
      omega
  · funext y
    show V c main_arg2 (((cfg0.win 2).blk t).view.emb y) = V c main_arg2 y
    refine congrArg _ (funext fun a => Fin.ext ?_)
    match a with
    | ⟨0, _⟩ =>
      show win0_2.index t (0 : Fin 2) * 128 + 1 * (y 0).val = (y 0).val
      omega
    | ⟨1, _⟩ =>
      show win0_2.index t (1 : Fin 2) * 64 + 1 * (y 1).val = (y 1).val
      omega
  · funext y
    show V c main_arg4 (((cfg0.win 4).blk t).view.emb y) = V c main_arg4 y
    refine congrArg _ (funext fun a => Fin.ext ?_)
    match a with
    | ⟨0, _⟩ =>
      show win0_4.index t (0 : Fin 2) * 128 + 1 * (y 0).val = (y 0).val
      omega
    | ⟨1, _⟩ =>
      show win0_4.index t (1 : Fin 2) * 64 + 1 * (y 1).val = (y 1).val
      omega
  · funext k
    show V c main_v14 (((cfg0.win 3).blk t).view.emb (ix2 0 k)) = V c main_v14 (ix2 0 k)
    refine congrArg _ (funext fun a => Fin.ext ?_)
    match a with
    | ⟨0, _⟩ =>
      show win0_3.index t (0 : Fin 2) * 1 + 1 * ((0 : Fin 1) : Nat) = ((0 : Fin 1) : Nat)
      rw [e30]
      rfl
    | ⟨1, _⟩ =>
      show win0_3.index t (1 : Fin 2) * 128 + 1 * k.val = k.val
      omega

/-- An index of the output array lies in point t's block iff each coordinate lies in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- The blocks cover the array: row r lies in the block of point r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_row_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the first tiled region the output array holds the first layer of the arrays the region found. -/
theorem final0 (c : Dev nD) :
    (dat0 (F := Ideal) V c).arrAt 5 cfg0.N
      = Cert.Spec.layer1 (V c main_v13) (V c main_arg0) (V c main_arg2) (V c main_arg4) (fun j => V c main_v14 (ix2 0 j)) :=
  (dat0 (F := Ideal) V c).arrAt_eq_of_cover 5 _ (fun t _ => flushed_eq V c t) covered

end Cert.KernelIdeal.Val0

end
-- ==== Proof.KernelValue1.lean ====
/-
  The second tiled region read as mathematics: its output array is the head of the arrays the region finds.

  The region runs 20 grid points over blocks of 5000 rows. At each point the body loads one block of h and one of agg
  (5000 × 128 each) and the weights and biases whole, and stores the 5000 × 1 block

      relu((agg·w2_relᵀ + h·w2_rootᵀ + b2)·w_fc1ᵀ + b_fc1)·w_fc2ᵀ + b_fc2,

  where a·wᵀ at (p, q) is Σ_c a(p, c) · w(q, c). Three steps.

  1. The body's result block is the specification's `head` of the loaded blocks (`payload_eq`). At the ideal values a
     narrowing of the number format is the identity; the product of a block with a transposed block into the zero
     accumulator, read at (p, q), is Σ_c A(p, c) · W(q, c) = (A·Wᵀ)(p, q); a one-row block sent down the rows reads the
     row; and a cast of a block to its own shape is the identity. So the two products added to the bias row are the
     convolution `conv`, each dense layer is `lin`, and the maximum with +0.0 is `relu`.
  2. What point t writes back is block t of `head` of the whole arrays (`flushed_eq`). The index maps, decided over the
     20 points, put the windows of h, of agg and of the output at block (t, 0) and every weight and bias window at block
     (0, 0) of an array one block large, so those blocks are the arrays themselves; row p of block t is row 5000·t + p of
     h and agg; and `head` at a row reads only that row of the node-indexed operands (`Cert.Spec.head_congr`).
  3. The 20 blocks tile the 100000 × 1 array (`covered`): row r lies in the block of point r / 5000 and the single column
     is column 0 of every block. Hence the array ends holding `head` at every index (`final1`).
-/
import proofs.«103470_j75625784148347_1_alg».proof.Proof.Gen.KernelIdeal.Frame
import proofs.«103470_j75625784148347_1_alg».proof.Proof.Spec
import proofs.«103470_j75625784148347_1_alg».proof.Proof.LibMatmulPlain
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

set_option maxRecDepth 16384

noncomputable section

open scoped BigOperators

namespace Cert.KernelIdeal.Val1

open Idealize.ShloMosaic Idealize.ShloMosaic.TcCoe Idealize.ShloMosaic.ValueIdx Idealize.SL.Sem
open Cert.KernelIdeal Cert.KernelIdeal.Gen

/-! ## The body's result block as the specification -/

open Cert.Spec Cert.LibMatmulPlain

/-- A block times a transposed weight block into the zero accumulator, at (a, b): entry (a, b) of A·Wᵀ. -/
private theorem matmulT_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D none A (transpose ⟨2, ![k, n]⟩ [1, 0] W h) (constant (F := Ideal) ⟨2, ![m, n]⟩ .f32 0x00000000#32) (ix2 a b)
      = mulT A W a b := by
  subst hD
  refine (matmul_plain_zero_apply none A _ a b).trans ?_
  unfold mulT
  exact Finset.sum_congr rfl fun c _ => by rw [transpose_ix2_apply]

/-- One dense layer of the kernel at (p, q): the product into zero plus the bias row sent down the rows. -/
private theorem dense_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (W : FVec Ideal ⟨2, ![n, k]⟩ φ₂)
    (hT : (⟨2, ![n, k]⟩ : Shape).Transposes [1, 0] ⟨2, ![k, n]⟩) (b : FVec Ideal ⟨2, ![1, n]⟩ .f32)
    (hB : (⟨2, ![1, n]⟩ : Shape).Broadcasts ⟨2, ![m, n]⟩) (p : Fin m) (q : Fin n) :
    addf (matmul D none A (transpose ⟨2, ![k, n]⟩ [1, 0] W hT) (constant (F := Ideal) ⟨2, ![m, n]⟩ .f32 0x00000000#32))
        (broadcastTo ⟨2, ![m, n]⟩ b hB) (ix2 p q)
      = mulT A W p q + b (ix2 0 q) :=
  congrArg₂ (· + ·) (matmulT_apply D hD A W hT p q) (rowBroadcast_apply b hB p q)

/-- The convolution of the kernel at (p, q): two products into zero, added, plus the bias row sent down the rows. -/
private theorem convBlock_apply {m k n : Nat} {φ₁ φ₂ : FTy} (D : DotDims ⟨2, ![m, k]⟩ ⟨2, ![k, n]⟩ ⟨2, ![m, n]⟩)
    (hD : D = DotDims.plain m k n) (A₁ A₂ : FVec Ideal ⟨2, ![m, k]⟩ φ₁) (W₁ W₂ : FVec Ideal ⟨2, ![n, k]⟩ φ₂)
    (hT : (⟨2, ![n, k]⟩ : Shape).Transposes [1, 0] ⟨2, ![k, n]⟩) (b : FVec Ideal ⟨2, ![1, n]⟩ .f32)
    (hB : (⟨2, ![1, n]⟩ : Shape).Broadcasts ⟨2, ![m, n]⟩) (p : Fin m) (q : Fin n) :
    addf (addf (matmul D none A₁ (transpose ⟨2, ![k, n]⟩ [1, 0] W₁ hT) (constant (F := Ideal) ⟨2, ![m, n]⟩ .f32 0x00000000#32))
          (matmul D none A₂ (transpose ⟨2, ![k, n]⟩ [1, 0] W₂ hT) (constant (F := Ideal) ⟨2, ![m, n]⟩ .f32 0x00000000#32)))
        (broadcastTo ⟨2, ![m, n]⟩ b hB) (ix2 p q)
      = convAt A₁ A₂ W₁ W₂ (fun j => b (ix2 0 j)) p q :=
  congrArg₂ (· + ·) (congrArg₂ (· + ·) (matmulT_apply D hD A₁ W₁ hT p q) (matmulT_apply D hD A₂ W₂ hT p q))
    (rowBroadcast_apply b hB p q)

/-- The hidden block of the head at (p, q): relu of the first dense layer of the convolution. -/
private theorem hidden_apply (x0 x1 : Vec Ideal S5000x128 .f32) (x2 x4 : Vec Ideal S128x128 .f32) (x3 : Vec Ideal S1x128 .f32)
    (x5 : Vec Ideal S20x128 .f32) (x6 : Vec Ideal S1x20 .f32) (p : Fin 5000) (q : Fin 20) :
    k1_pay3 (F := Ideal) x0 x1 x2 x4 x3 x5 x6 (ix2 p q)
      = relu (lin (conv x1 x0 x2 x4 (fun j => x3 (ix2 0 j))) x5 (fun j => x6 (ix2 0 j))) (ix2 p q) := by
  unfold k1_pay3
  simp only [truncf_apply, maximumf_apply, broadcast_apply]
  rw [relu_ix2, lin_ix2]
  refine congrArg (max · zeroW) ?_
  refine (dense_apply _ rfl _ _ _ _ _ p q).trans ?_
  refine congrArg₂ (· + ·) (mulT_congr (fun c => ?_) (fun _ => rfl)) (congrFun (shapeCast_self x6 _) _)
  rw [conv_ix2]
  refine (convBlock_apply _ rfl _ _ _ _ _ _ _ p c).trans ?_
  rw [shapeCast_self, shapeCast_self, shapeCast_self]
  rfl

/-- The body's result block is the head of its loaded blocks. -/
private theorem payload_eq (x0 x1 : Vec Ideal S5000x128 .f32) (x2 x4 : Vec Ideal S128x128 .f32) (x3 : Vec Ideal S1x128 .f32)
    (x5 : Vec Ideal S20x128 .f32) (x6 x7 : Vec Ideal S1x20 .f32) (x8 : Vec Ideal S1x1 .f32) :
    k1_pay1 (F := Ideal) (k1_pay2 x8) (k1_pay3 x0 x1 x2 x4 x3 x5 x6) (k1_pay4 x7) (constant S5000x1 .f32 0x00000000#32)
      = head x1 x0 x2 x4 (fun j => x3 (ix2 0 j)) x5 (fun j => x6 (ix2 0 j)) x7 (x8 (ix2 0 0)) := by
  funext j
  obtain ⟨p, q, rfl⟩ : ∃ (p : Fin 5000) (q : Fin 1), j = ix2 p q := ⟨j 0, j 1, eq_ix2 j⟩
  unfold k1_pay1 k1_pay2 k1_pay4 head
  rw [lin_ix2]
  refine (dense_apply _ rfl _ _ _ _ _ p q).trans ?_
  refine congrArg₂ (· + ·) (mulT_congr (fun c => hidden_apply x0 x1 x2 x4 x3 x5 x6 p c) (fun _ => rfl)) ?_
  obtain rfl : q = 0 := Subsingleton.elim _ _
  exact congrFun (shapeCast_self x8 _) _

/-! ## From the blocks to the array -/

variable (V : (c : Dev nD) → (b : Ref sig .tc) → Buf (Elt Ideal) ((c : Thread nD τ).loc b))

/-- The body loads and stores whole staging buffers: every offset is zero. -/
private theorem zero_offsets : (![0, 0] : Fin 2 → Nat) = fun _ => 0 := funext fun a => by fin_cases a <;> rfl

/-- The index maps over the 20 grid points: the node-indexed windows (h, agg, the output) sit at block (t, 0) at point t;
    every weight and bias window sits at block (0, 0). -/
private theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The grid has 20 points. -/
private theorem point_lt (t : Fin cfg1.N) : t.val < 20 := lt_of_lt_of_eq t.isLt N_1

/-- The second layer's neighbour weights are staged whole: the window's one block is the array. -/
private theorem w2rel_block (c : Dev nD) (t : Fin cfg1.N) : (iblk1 V c 2 t : Vec Ideal S128x128 .f32) = V c main_arg5 := by
  obtain ⟨-, -, -, -, e0, e1, -, -, -, -, -, -, -, -, -, -, -, -, -, -⟩ := index_facts t
  funext j
  show V c main_arg5 (((cfg1.win 2).blk t).view.emb j) = V c main_arg5 j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- The second layer's bias row is staged whole. -/
private theorem b2_block (c : Dev nD) (t : Fin cfg1.N) : (iblk1 V c 3 t : Vec Ideal S1x128 .f32) = V c main_v26 := by
  obtain ⟨-, -, -, -, -, -, e0, e1, -, -, -, -, -, -, -, -, -, -, -, -⟩ := index_facts t
  funext j
  show V c main_v26 (((cfg1.win 3).blk t).view.emb j) = V c main_v26 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- The second layer's root weights are staged whole. -/
private theorem w2root_block (c : Dev nD) (t : Fin cfg1.N) : (iblk1 V c 4 t : Vec Ideal S128x128 .f32) = V c main_arg7 := by
  obtain ⟨-, -, -, -, -, -, -, -, e0, e1, -, -, -, -, -, -, -, -, -, -⟩ := index_facts t
  funext j
  show V c main_arg7 (((cfg1.win 4).blk t).view.emb j) = V c main_arg7 j
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- The first dense layer's weights are staged whole. -/
private theorem wfc1_block (c : Dev nD) (t : Fin cfg1.N) : (iblk1 V c 5 t : Vec Ideal S20x128 .f32) = V c main_arg8 := by
  obtain ⟨-, -, -, -, -, -, -, -, -, -, e0, e1, -, -, -, -, -, -, -, -⟩ := index_facts t
  funext j
  show V c main_arg8 (((cfg1.win 5).blk t).view.emb j) = V c main_arg8 j
  refine congrArg _ (funext fun a => Fin.ext ?_)
  match a with
  | ⟨0, _⟩ => show win1_5.index t (0 : Fin 2) * 20 + 1 * (j 0).val = (j 0).val; omega
  | ⟨1, _⟩ => show win1_5.index t (1 : Fin 2) * 128 + 1 * (j 1).val = (j 1).val; omega

/-- The first dense layer's bias row is staged whole. -/
private theorem bfc1_block (c : Dev nD) (t : Fin cfg1.N) : (iblk1 V c 6 t : Vec Ideal S1x20 .f32) = V c main_v27 := by
  obtain ⟨-, -, -, -, -, -, -, -, -, -, -, -, e0, e1, -, -, -, -, -, -⟩ := index_facts t
  funext j
  show V c main_v27 (((cfg1.win 6).blk t).view.emb j) = V c main_v27 j
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 20 + 1 * (j 1).val = (j 1).val; omega

/-- The last dense layer's weight row is staged whole. -/
private theorem wfc2_block (c : Dev nD) (t : Fin cfg1.N) : (iblk1 V c 7 t : Vec Ideal S1x20 .f32) = V c main_arg10 := by
  obtain ⟨-, -, -, -, -, -, -, -, -, -, -, -, -, -, e0, e1, -, -, -, -⟩ := index_facts t
  funext j
  show V c main_arg10 (((cfg1.win 7).blk t).view.emb j) = V c main_arg10 j
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 20 + 1 * (j 1).val = (j 1).val; omega

/-- The last dense layer's bias is staged whole. -/
private theorem bfc2_block (c : Dev nD) (t : Fin cfg1.N) : (iblk1 V c 8 t : Vec Ideal S1x1 .f32) = V c main_v28 := by
  obtain ⟨-, -, -, -, -, -, -, -, -, -, -, -, -, -, -, -, e0, e1, -, -⟩ := index_facts t
  funext j
  show V c main_v28 (((cfg1.win 8).blk t).view.emb j) = V c main_v28 j
  refine congrArg _ (funext fun a => Fin.ext ?_)
  match a with
  | ⟨0, _⟩ => show win1_8.index t (0 : Fin 2) * 1 + 1 * (j 0).val = (j 0).val; omega
  | ⟨1, _⟩ => show win1_8.index t (1 : Fin 2) * 1 + 1 * (j 1).val = (j 1).val; omega

/-- What point t writes back is block t of the head of the arrays the region found: row p of the block is row
    5000·t + p of the node-indexed arrays, and the head at a row reads only that row of them. -/
private theorem flushed_eq (c : Dev nD) (t : Fin cfg1.N) :
    (dat1 (F := Ideal) V c).flushed 9 t = ((cfg1.win 9).blk t).view.read (Elt Ideal)
      (Cert.Spec.head (V c main_v25) (V c main_v15) (V c main_arg5) (V c main_arg7) (fun j => V c main_v26 (ix2 0 j))
          (V c main_arg8) (fun j => V c main_v27 (ix2 0 j)) (V c main_arg10) (V c main_v28 (ix2 0 0))) := by
  show (cfg1.win 9).cut (grid1.coords t) ((dat1 V c).after 9 t) = _
  rw [after1_9]
  unfold out1_9
  rw [View.canon_unit_zero zero_offsets]
  simp only [View.ld_unit_zero (S := S5000x128) zero_offsets, View.ld_unit_zero (S := S128x128) zero_offsets,
    View.ld_unit_zero (S := S1x128) zero_offsets, View.ld_unit_zero (S := S20x128) zero_offsets,
    View.ld_unit_zero (S := S1x20) zero_offsets, View.ld_unit_zero (S := S1x1) zero_offsets]
  rw [payload_eq]
  rw [w2rel_block V c t, b2_block V c t, w2root_block V c t, wfc1_block V c t, bfc1_block V c t, wfc2_block V c t,
    bfc2_block V c t]
  have ht := point_lt t
  obtain ⟨h00, h01, h10, h11, -, -, -, -, -, -, -, -, -, -, -, -, -, -, h90, h91⟩ := index_facts t
  funext j
  obtain ⟨p, q, rfl⟩ : ∃ (p : Fin 5000) (q : Fin 1), j = ix2 p q := ⟨j 0, j 1, eq_ix2 j⟩
  have hp : p.val < 5000 := p.isLt
  have hE : ((cfg1.win 9).blk t).view.emb (ix2 p q) = ix2 (⟨t.val * 5000 + p.val, by omega⟩ : Fin 100000) q := by
    funext a; apply Fin.ext
    match a with
    | ⟨0, _⟩ => show win1_9.index t (0 : Fin 2) * 5000 + 1 * p.val = t.val * 5000 + p.val; omega
    | ⟨1, _⟩ => show win1_9.index t (1 : Fin 2) * 1 + 1 * q.val = q.val; omega
  show Cert.Spec.head _ _ _ _ _ _ _ _ _ (ix2 p q) = Cert.Spec.head _ _ _ _ _ _ _ _ _ (((cfg1.win 9).blk t).view.emb (ix2 p q))
  rw [hE]
  refine head_congr _ _ _ _ _ _ _ q (fun k => ?_) (fun k => ?_)
  · show V c main_v25 (((cfg1.win 1).blk t).view.emb (ix2 p k)) = V c main_v25 (ix2 ⟨t.val * 5000 + p.val, by omega⟩ k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v15 (((cfg1.win 0).blk t).view.emb (ix2 p k)) = V c main_v15 (ix2 ⟨t.val * 5000 + p.val, by omega⟩ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega

/-- An index of the output array is in point t's block iff each coordinate is in the block's range on its axis. -/
private theorem mem_block (t : Fin cfg1.N) (i : S100000x1.Idx) :
    i ∈ ((cfg1.win 9).blk t).view.set ↔ ∀ a : Fin 2, win1_9.index t a * S5000x1.size a ≤ (i a).val
      ∧ (i a).val < win1_9.index t a * S5000x1.size a + S5000x1.size a := by
  show i ∈ ((View.whole main_v29).slice (win1_9.rect t)).set ↔ _
  rw [View.set_slice_whole, Rect.mem_set_unit]
  exact Iff.rfl

/-- The 20 blocks of 5000 rows tile the 100000 rows: row r lies in the block of point r / 5000, and the one column is
    column 0 of every block. -/
private theorem covered (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : (i 0).val / 5000 < cfg1.N := lt_of_lt_of_eq (by omega : (i 0).val / 5000 < 20) N_1.symm
  obtain ⟨-, -, -, -, -, -, -, -, -, -, -, -, -, -, -, -, -, -, h90, h91⟩ := index_facts ⟨(i 0).val / 5000, hN⟩
  have h90' : win1_9.index ⟨(i 0).val / 5000, hN⟩ (0 : Fin 2) = (i 0).val / 5000 := h90
  refine ⟨⟨(i 0).val / 5000, hN⟩, flush1_9 _, ?_⟩
  rw [mem_block]
  intro a
  match a with
  | ⟨0, _⟩ =>
    show win1_9.index ⟨(i 0).val / 5000, hN⟩ (0 : Fin 2) * 5000 ≤ (i 0).val
      ∧ (i 0).val < win1_9.index ⟨(i 0).val / 5000, hN⟩ (0 : Fin 2) * 5000 + 5000
    omega
  | ⟨1, _⟩ =>
    show win1_9.index ⟨(i 0).val / 5000, hN⟩ (1 : Fin 2) * 1 ≤ (i 1).val
      ∧ (i 1).val < win1_9.index ⟨(i 0).val / 5000, hN⟩ (1 : Fin 2) * 1 + 1
    omega

/-- After the second tiled region the output array holds the head of the arrays the region found. -/
theorem final1 (c : Dev nD) :
    (dat1 (F := Ideal) V c).arrAt 9 cfg1.N
      = Cert.Spec.head (V c main_v25) (V c main_v15) (V c main_arg5) (V c main_arg7) (fun j => V c main_v26 (ix2 0 j))
          (V c main_arg8) (fun j => V c main_v27 (ix2 0 j)) (V c main_arg10) (V c main_v28 (ix2 0 0)) :=
  (dat1 (F := Ideal) V c).arrAt_eq_of_cover 9 _ (fun t _ => flushed_eq V c t) covered

end Cert.KernelIdeal.Val1

end
-- ==== Proof.KernelHost.lean ====
/-
  The kernel program between its regions, read as values at the ideal instance.

  Before the first region the host computes the neighbour sums of x (a gather by source, a scatter-add by destination)
  and lays the first bias out as one row; so the first region finds exactly the arrays the first layer is a function of,
  and leaves the hidden features H = elu(conv(agg(x), x)). Before the second region the host computes the neighbour sums
  of H the same way, from the same two rows of the edge list, and lays the remaining biases out as rows; so the second
  region leaves head(agg(H), H). Reading each boundary's contents buffer by buffer gives the program's result as that one
  function of its twelve arguments. A bias laid out as a row [1, n] reads at (0, j) as the vector at j.
-/
import proofs.«103470_j75625784148347_1_alg».proof.Proof.Gen.KernelIdeal.Frame
import proofs.«103470_j75625784148347_1_alg».proof.Proof.Spec
import proofs.«103470_j75625784148347_1_alg».proof.Proof.KernelAgg
import proofs.«103470_j75625784148347_1_alg».proof.Proof.KernelValue0
import proofs.«103470_j75625784148347_1_alg».proof.Proof.KernelValue1
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- A vector laid out as one row reads, at (0, j), the vector at j. -/
theorem rowOf_apply {n : Nat} (v : (⟨1, ![n]⟩ : Shape).Idx → EReal) (h : (⟨1, ![n]⟩ : Shape).ShapeCasts ⟨2, ![1, n]⟩) (j : Fin n) :
    shapeCast ⟨2, ![1, n]⟩ v h (ix2 0 j) = v (ix1 j) :=
  shapeCast_apply v h (ix2 0 j) (ix1 j) (by
    rw [Shape.rowMajor_val_one, Shape.rowMajor_val_two]
    show j.val = (0 : Fin 1).val * n + j.val
    simp)

/-! ## Region 0's entry: after the first host stretch -/

theorem V1_agg (c : Dev nD) : V1 m ρ c main_v13 = agg64 (F := Ideal) (m ((c.tc : Thread nD τ).loc main_arg0)) (m ((c.tc : Thread nD τ).loc main_arg1)) := by
  show after hostOps0 (W0 m ρ c) (Proc.devRef .tc main_v13) = _
  after_results
  rfl

theorem V1_bias (c : Dev nD) : V1 m ρ c main_v14 = shapeCast S1x128 (m ((c.tc : Thread nD τ).loc main_arg3)) shapeCasts_S128_S1x128 := by
  show after hostOps0 (W0 m ρ c) (Proc.devRef .tc main_v14) = _
  after_results
  rfl

theorem V1_src (c : Dev nD) : W1 m ρ c (Proc.devRef .tc main_v1) = edgeRow0 (m ((c.tc : Thread nD τ).loc main_arg1)) := by
  show after hostOps0 (W0 m ρ c) (Proc.devRef .tc main_v1) = _
  after_results
  rfl

theorem V1_dst (c : Dev nD) : W1 m ρ c (Proc.devRef .tc main_v3) = edgeRow1 (m ((c.tc : Thread nD τ).loc main_arg1)) := by
  show after hostOps0 (W0 m ρ c) (Proc.devRef .tc main_v3) = _
  after_results
  rfl

/-- An argument's buffer after the first host stretch holds the argument. -/
theorem V1_arg (c : Dev nD) :
    W1 m ρ c (Proc.devRef .tc main_arg0) = (m ((c.tc : Thread nD τ).loc main_arg0)) ∧ W1 m ρ c (Proc.devRef .tc main_arg2) = (m ((c.tc : Thread nD τ).loc main_arg2))
    ∧ W1 m ρ c (Proc.devRef .tc main_arg4) = (m ((c.tc : Thread nD τ).loc main_arg4)) ∧ W1 m ρ c (Proc.devRef .tc main_arg5) = (m ((c.tc : Thread nD τ).loc main_arg5))
    ∧ W1 m ρ c (Proc.devRef .tc main_arg6) = (m ((c.tc : Thread nD τ).loc main_arg6)) ∧ W1 m ρ c (Proc.devRef .tc main_arg7) = (m ((c.tc : Thread nD τ).loc main_arg7))
    ∧ W1 m ρ c (Proc.devRef .tc main_arg8) = (m ((c.tc : Thread nD τ).loc main_arg8)) ∧ W1 m ρ c (Proc.devRef .tc main_arg9) = (m ((c.tc : Thread nD τ).loc main_arg9))
    ∧ W1 m ρ c (Proc.devRef .tc main_arg10) = (m ((c.tc : Thread nD τ).loc main_arg10)) ∧ W1 m ρ c (Proc.devRef .tc main_arg11) = (m ((c.tc : Thread nD τ).loc main_arg11)) := by
  refine ⟨?_, ?_, ?_, ?_, ?_, ?_, ?_, ?_, ?_, ?_⟩ <;>
  · show after hostOps0 (W0 m ρ c) _ = _
    after_results
    try rfl

/-- The hidden features: the first layer of the arguments. -/
abbrev hid (c : Dev nD) : Cert.Spec.Mat 100000 128 :=
  Cert.Spec.layer1 (agg64 (F := Ideal) (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (fun j => (m ((c.tc : Thread nD τ).loc main_arg3)) (ix1 j))

/-! ## Region 0's exit -/

/-- The first region leaves the hidden features in its output array. -/
theorem W2_hid (c : Dev nD) : W2 m ρ c (Proc.devRef .tc main_v15) = hid m c := by
  refine (W2_arr m ρ c 5).trans ((Cert.KernelIdeal.Val0.final0 (V1 m ρ) c).trans ?_)
  have hb : (fun j : Fin 128 => V1 m ρ c main_v14 (ix2 0 j)) = fun j => (m ((c.tc : Thread nD τ).loc main_arg3)) (ix1 j) := by
    funext j; rw [V1_bias]; exact rowOf_apply _ _ j
  rw [V1_agg, hb]
  obtain ⟨a0, a2, a4, -⟩ := V1_arg m ρ c
  show Cert.Spec.layer1 _ (W1 m ρ c (Proc.devRef .tc main_arg0)) (W1 m ρ c (Proc.devRef .tc main_arg2)) (W1 m ρ c (Proc.devRef .tc main_arg4)) _ = _
  rw [a0, a2, a4]

/-- Every buffer that is not one of the first region's arrays is as the region found it. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## Region 1's entry: after the second host stretch -/

theorem V3_hid (c : Dev nD) : V3 m ρ c main_v15 = hid m c := by
  show after hostOps1 (W2 m ρ c) (Proc.devRef .tc main_v15) = _
  after_results
  exact W2_hid m ρ c

theorem V3_agg (c : Dev nD) : V3 m ρ c main_v25 = agg128 (F := Ideal) (hid m c) (m ((c.tc : Thread nD τ).loc main_arg1)) := by
  show after hostOps1 (W2 m ρ c) (Proc.devRef .tc main_v25) = _
  after_results
  rw [W2_hid, W2_keep m ρ c main_v1 (by decide), W2_keep m ρ c main_v3 (by decide), V1_src, V1_dst]
  rfl

theorem V3_bias2 (c : Dev nD) : V3 m ρ c main_v26 = shapeCast S1x128 (m ((c.tc : Thread nD τ).loc main_arg6)) shapeCasts_S128_S1x128 := by
  show after hostOps1 (W2 m ρ c) (Proc.devRef .tc main_v26) = _
  after_results
  rw [W2_keep m ρ c main_arg6 (by decide), (V1_arg m ρ c).2.2.2.2.1]
  rfl

theorem V3_biasFc1 (c : Dev nD) : V3 m ρ c main_v27 = shapeCast S1x20 (m ((c.tc : Thread nD τ).loc main_arg9)) shapeCasts_S20_S1x20 := by
  show after hostOps1 (W2 m ρ c) (Proc.devRef .tc main_v27) = _
  after_results
  rw [W2_keep m ρ c main_arg9 (by decide), (V1_arg m ρ c).2.2.2.2.2.2.2.1]
  rfl

theorem V3_biasFc2 (c : Dev nD) : V3 m ρ c main_v28 = shapeCast S1x1 (m ((c.tc : Thread nD τ).loc main_arg11)) shapeCasts_S1_S1x1 := by
  show after hostOps1 (W2 m ρ c) (Proc.devRef .tc main_v28) = _
  after_results
  rw [W2_keep m ρ c main_arg11 (by decide), (V1_arg m ρ c).2.2.2.2.2.2.2.2.2]
  rfl

/-- A weight matrix's buffer at the second region's entry holds the argument. -/
theorem V3_arg (c : Dev nD) :
    V3 m ρ c main_arg5 = (m ((c.tc : Thread nD τ).loc main_arg5)) ∧ V3 m ρ c main_arg7 = (m ((c.tc : Thread nD τ).loc main_arg7)) ∧ V3 m ρ c main_arg8 = (m ((c.tc : Thread nD τ).loc main_arg8)) ∧ V3 m ρ c main_arg10 = (m ((c.tc : Thread nD τ).loc main_arg10)) := by
  obtain ⟨-, -, -, a5, -, a7, a8, -, a10, -⟩ := V1_arg m ρ c
  refine ⟨?_, ?_, ?_, ?_⟩
  · show after hostOps1 (W2 m ρ c) (Proc.devRef .tc main_arg5) = _
    after_results
    rw [W2_keep m ρ c main_arg5 (by decide), a5]
  · show after hostOps1 (W2 m ρ c) (Proc.devRef .tc main_arg7) = _
    after_results
    rw [W2_keep m ρ c main_arg7 (by decide), a7]
  · show after hostOps1 (W2 m ρ c) (Proc.devRef .tc main_arg8) = _
    after_results
    rw [W2_keep m ρ c main_arg8 (by decide), a8]
  · show after hostOps1 (W2 m ρ c) (Proc.devRef .tc main_arg10) = _
    after_results
    rw [W2_keep m ρ c main_arg10 (by decide), a10]

/-! ## The result -/

/-- The second region's output array at the end of the run: the head of the hidden features and their neighbour sums. -/
theorem W4_out (c : Dev nD) :
    W4 m ρ c (Proc.devRef .tc main_v29)
      = Cert.Spec.head (agg128 (F := Ideal) (hid m c) (m ((c.tc : Thread nD τ).loc main_arg1))) (hid m c) (m ((c.tc : Thread nD τ).loc main_arg5)) (m ((c.tc : Thread nD τ).loc main_arg7)) (fun j => (m ((c.tc : Thread nD τ).loc main_arg6)) (ix1 j))
          (m ((c.tc : Thread nD τ).loc main_arg8)) (fun j => (m ((c.tc : Thread nD τ).loc main_arg9)) (ix1 j)) (m ((c.tc : Thread nD τ).loc main_arg10)) ((m ((c.tc : Thread nD τ).loc main_arg11)) (ix1 0)) := by
  refine (W4_arr m ρ c 9).trans ((Cert.KernelIdeal.Val1.final1 (V3 m ρ) c).trans ?_)
  have hb2 : (fun j : Fin 128 => V3 m ρ c main_v26 (ix2 0 j)) = fun j => (m ((c.tc : Thread nD τ).loc main_arg6)) (ix1 j) := by
    funext j; rw [V3_bias2]; exact rowOf_apply _ _ j
  have hb1 : (fun j : Fin 20 => V3 m ρ c main_v27 (ix2 0 j)) = fun j => (m ((c.tc : Thread nD τ).loc main_arg9)) (ix1 j) := by
    funext j; rw [V3_biasFc1]; exact rowOf_apply _ _ j
  have hb0 : V3 m ρ c main_v28 (ix2 0 0) = (m ((c.tc : Thread nD τ).loc main_arg11)) (ix1 0) := by
    rw [V3_biasFc2]; exact rowOf_apply _ _ 0
  obtain ⟨a5, a7, a8, a10⟩ := V3_arg m ρ c
  rw [V3_agg, V3_hid, hb2, hb1, hb0, a5, a7, a8, a10]

end Cert.KernelIdeal.Val

end
-- ==== Proof.RefTerm.lean ====
/-
  The reference program's result as ONE term of its twelve arguments, built from named stages: the two rows of the edge
  list, the index columns the gather and the scatter-add take, the neighbour sums, each graph convolution
  (agg·w_relᵀ + b) + x·w_rootᵀ with the weights transposed first, elu in its guarded spelling, and the two dense layers of
  the head. Nothing is proved here; the run states its result with this term and the value proof reads it index by index.
-/
import proofs.«103470_j75625784148347_1_alg».proof.Proof.Gen.ReferenceIdeal

noncomputable section

namespace Cert.ReferenceIdeal.RefValue

open Idealize.ShloMosaic Cert.ReferenceIdeal Cert.ReferenceIdeal.Gen

variable {F : FTy → Type} [FloatOps F]

/-- Row 0 of the edge list (the sources) and row 1 (the destinations), each as a vector over the edges. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The gather's start indices: each source, a negative one counted from the end (s + 100000 where s < 0), as a column. -/
def srcIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 100000#32))) (edgeRow0 ei))
/-- The scatter's indices: each destination as it stands, as a column. -/
def dstIdx (ei : IVec S2x800000 32) : IVec S800000x1 32 :=
  broadcastInDim S800000x1 ![0] bcast_S800000_S800000x1_0 (edgeRow1 ei)

/-- The neighbour sums of a 64-column feature matrix: row src(e) of x gathered for every edge e and added into row
    dst(e) of a zero matrix. -/
def agg64 (x : FVec F S100000x64 .f32) (ei : IVec S2x800000 32) : FVec F S100000x64 .f32 :=
  Host.scatterAdd scatter_S100000x64_S800000x1_S800000x64_1_0_0_1
    (broadcastInDim S100000x64 ![] bcast_S_S100000x64 (constant S_ .f32 0x00000000#32)) (dstIdx ei)
    (Host.gather gather_S100000x64_S800000x1_S800000x64_1_0_n_n_0_1_164 x (srcIdx ei))
/-- The same for a 128-column feature matrix. -/
def agg128 (h : FVec F S100000x128 .f32) (ei : IVec S2x800000 32) : FVec F S100000x128 .f32 :=
  Host.scatterAdd scatter_S100000x128_S800000x1_S800000x128_1_0_0_1
    (broadcastInDim S100000x128 ![] bcast_S_S100000x128 (constant S_ .f32 0x00000000#32)) (dstIdx ei)
    (Host.gather gather_S100000x128_S800000x1_S800000x128_1_0_n_n_0_1_1128 h (srcIdx ei))

/-- The first convolution before its activation: (agg·w_relᵀ + b) + x·w_rootᵀ. -/
def conv1 (x agg : FVec F S100000x64 .f32) (wrel : FVec F S128x64 .f32) (b : FVec F S128 .f32) (wroot : FVec F S128x64 .f32) :
    FVec F S100000x128 .f32 :=
  addf
    (addf (Host.dotGeneral dot_S100000x64_S64x128_S100000x128_1_0_0_1_n_n none agg (transpose S64x128 [1, 0] wrel transposes_S128x64_S64x128_1_0))
      (broadcastInDim S100000x128 ![0, 1] bcast_S1x128_S100000x128_0_1 (broadcastInDim S1x128 ![1] bcast_S128_S1x128_1 b)))
    (Host.dotGeneral dot_S100000x64_S64x128_S100000x128_1_0_0_1_n_n none x (transpose S64x128 [1, 0] wroot transposes_S128x64_S64x128_1_0))

/-- elu in the guarded spelling: where h > 0 keep h; elsewhere 1.0 · expm1 of h, the exponential's argument replaced by 0
    where h > 0. -/
def eluH (h : FVec F S100000x128 .f32) : FVec F S100000x128 .f32 :=
  select (cmpf .ogt h (broadcastInDim S100000x128 ![] bcast_S_S100000x128 (constant S_ .f32 0x00000000#32))) h
    (mulf (broadcastInDim S100000x128 ![] bcast_S_S100000x128 (constant S_ .f32 0x3F800000#32))
      (Host.expm1
        (select (cmpf .ogt h (broadcastInDim S100000x128 ![] bcast_S_S100000x128 (constant S_ .f32 0x00000000#32)))
          (broadcastInDim S100000x128 ![] bcast_S_S100000x128 (id (constant S_ .f32 0x00000000#32))) h)))

/-- The second convolution, no activation. -/
def conv2 (h agg : FVec F S100000x128 .f32) (wrel : FVec F S128x128 .f32) (b : FVec F S128 .f32) (wroot : FVec F S128x128 .f32) :
    FVec F S100000x128 .f32 :=
  addf
    (addf (Host.dotGeneral dot_S100000x128_S128x128_S100000x128_1_0_0_1_n_n none agg (transpose S128x128 [1, 0] wrel transposes_S128x128_S128x128_1_0))
      (broadcastInDim S100000x128 ![0, 1] bcast_S1x128_S100000x128_0_1 (broadcastInDim S1x128 ![1] bcast_S128_S1x128_1 b)))
    (Host.dotGeneral dot_S100000x128_S128x128_S100000x128_1_0_0_1_n_n none h (transpose S128x128 [1, 0] wroot transposes_S128x128_S128x128_1_0))

/-- The head's first dense layer with its relu. -/
def dense1 (h2 : FVec F S100000x128 .f32) (wfc1 : FVec F S20x128 .f32) (bfc1 : FVec F S20 .f32) : FVec F S100000x20 .f32 :=
  maximumf
    (addf (Host.dotGeneral dot_S100000x128_S128x20_S100000x20_1_0_0_1_n_n none h2 (transpose S128x20 [1, 0] wfc1 transposes_S20x128_S128x20_1_0))
      (broadcastInDim S100000x20 ![0, 1] bcast_S1x20_S100000x20_0_1 (broadcastInDim S1x20 ![1] bcast_S20_S1x20_1 bfc1)))
    (broadcastInDim S100000x20 ![] bcast_S_S100000x20 (constant S_ .f32 0x00000000#32))

/-- The head's second dense layer. -/
def dense2 (a : FVec F S100000x20 .f32) (wfc2 : FVec F S1x20 .f32) (bfc2 : FVec F S1 .f32) : FVec F S100000x1 .f32 :=
  addf (Host.dotGeneral dot_S100000x20_S20x1_S100000x1_1_0_0_1_n_n none a (transpose S20x1 [1, 0] wfc2 transposes_S1x20_S20x1_1_0))
    (broadcastInDim S100000x1 ![0, 1] bcast_S1x1_S100000x1_0_1 (broadcastInDim S1x1 ![1] bcast_S1_S1x1_1 bfc2))

/-- The hidden features after the first layer. -/
def hidden (x : FVec F S100000x64 .f32) (ei : IVec S2x800000 32) (w1rel : FVec F S128x64 .f32) (b1 : FVec F S128 .f32)
    (w1root : FVec F S128x64 .f32) : FVec F S100000x128 .f32 :=
  eluH (conv1 x (agg64 x ei) w1rel b1 w1root)

/-- The reference's result. -/
def refOut (x : FVec F S100000x64 .f32) (ei : IVec S2x800000 32) (w1rel : FVec F S128x64 .f32) (b1 : FVec F S128 .f32)
    (w1root : FVec F S128x64 .f32) (w2rel : FVec F S128x128 .f32) (b2 : FVec F S128 .f32) (w2root : FVec F S128x128 .f32)
    (wfc1 : FVec F S20x128 .f32) (bfc1 : FVec F S20 .f32) (wfc2 : FVec F S1x20 .f32) (bfc2 : FVec F S1 .f32) : FVec F S100000x1 .f32 :=
  dense2 (dense1 (conv2 (hidden x ei w1rel b1 w1root) (agg128 (hidden x ei w1rel b1 w1root) ei) w2rel b2 w2root) wfc1 bfc1) wfc2 bfc2

end Cert.ReferenceIdeal.RefValue

end
-- ==== Proof.RefOps.lean ====
import proofs.«103470_j75625784148347_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out over their records' buffers. -/
abbrev ops : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg2 main_v14 ((transpose S64x128 [1, 0] · transposes_S128x64_S64x128_1_0) : (⟨S128x64, .f32⟩ : BufTy).Contents (Elt F) → (⟨S64x128, .f32⟩ : BufTy).Contents (Elt F)),
    binary main_v13 main_v14 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    unary main_arg4 main_v19 ((transpose S64x128 [1, 0] · transposes_S128x64_S64x128_1_0) : (⟨S128x64, .f32⟩ : BufTy).Contents (Elt F) → (⟨S64x128, .f32⟩ : BufTy).Contents (Elt F)),
    binary main_arg0 main_v19 main_v20 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v21) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v21) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v21) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v21) main_call0.v7 main_call0.call1.v0 select,
    unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    reshape main_v23 main_v24 rfl shapeCasts_S1x800000_S800000,
    unary main_arg1 main_v25 ((extractStridedSlice S1x800000 ![1, 0] · slices_S2x800000_S1x800000_1_0) : (⟨S2x800000, .i32⟩ : BufTy).Contents (Elt F) → (⟨S1x800000, .i32⟩ : BufTy).Contents (Elt F)),
    reshape main_v25 main_v26 rfl shapeCasts_S1x800000_S800000,
    nullary main_c_1 (constantI S_ 32 0#32),
    unary main_c_1 main_v27 (broadcastInDim S800000 ![] bcast_S_S800000 : (⟨S_, .i32⟩ : BufTy).Contents (Elt F) → (⟨S800000, .i32⟩ : BufTy).Contents (Elt F)),
    binary main_v24 main_v27 main_v28 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v29 (broadcastInDim S800000 ![] bcast_S_S800000 : (⟨S_, .i32⟩ : BufTy).Contents (Elt F) → (⟨S800000, .i32⟩ : BufTy).Contents (Elt F)),
    binary main_v24 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v24 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v22 main_v32 main_v33 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v34 (broadcastInDim S100000x128 ![] bcast_S_S100000x128 : (⟨S_, .f32⟩ : BufTy).Contents (Elt F) → (⟨S100000x128, .f32⟩ : BufTy).Contents (Elt F)),
    unary main_v26 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg5 main_v37 ((transpose S128x128 [1, 0] · transposes_S128x128_S128x128_1_0) : (⟨S128x128, .f32⟩ : BufTy).Contents (Elt F) → (⟨S128x128, .f32⟩ : BufTy).Contents (Elt F)),
    binary main_v36 main_v37 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    unary main_arg7 main_v42 ((transpose S128x128 [1, 0] · transposes_S128x128_S128x128_1_0) : (⟨S128x128, .f32⟩ : BufTy).Contents (Elt F) → (⟨S128x128, .f32⟩ : BufTy).Contents (Elt F)),
    binary main_v22 main_v42 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    unary main_arg8 main_v45 ((transpose S128x20 [1, 0] · transposes_S20x128_S128x20_1_0) : (⟨S20x128, .f32⟩ : BufTy).Contents (Elt F) → (⟨S128x20, .f32⟩ : BufTy).Contents (Elt F)),
    binary main_v44 main_v45 main_v46 ((fun l r => Host.dotGeneral dot_S100000x128_S128x20_S100000x20_1_0_0_1_n_n none l r) : (⟨S100000x128, .f32⟩ : BufTy).Contents (Elt F) → (⟨S128x20, .f32⟩ : BufTy).Contents (Elt F) → (⟨S100000x20, .f32⟩ : BufTy).Contents (Elt F)),
    unary main_arg9 main_v47 (broadcastInDim S1x20 ![1] bcast_S20_S1x20_1 : (⟨S20, .f32⟩ : BufTy).Contents (Elt F) → (⟨S1x20, .f32⟩ : BufTy).Contents (Elt F)),
    unary main_v47 main_v48 (broadcastInDim S100000x20 ![0, 1] bcast_S1x20_S100000x20_0_1 : (⟨S1x20, .f32⟩ : BufTy).Contents (Elt F) → (⟨S100000x20, .f32⟩ : BufTy).Contents (Elt F)),
    binary main_v46 main_v48 main_v49 (addf : (⟨S100000x20, .f32⟩ : BufTy).Contents (Elt F) → (⟨S100000x20, .f32⟩ : BufTy).Contents (Elt F) → (⟨S100000x20, .f32⟩ : BufTy).Contents (Elt F)),
    TRef.nullary main_call1.cst (constant S_ .f32 0x00000000#32),
    TRef.unary main_call1.cst main_call1.v0 (broadcastInDim S100000x20 ![] bcast_S_S100000x20),
    TRef.binary (.of main_v49) main_call1.v0 main_call1.v1 maximumf,
    unary main_arg10 main_v51 ((transpose S20x1 [1, 0] · transposes_S1x20_S20x1_1_0) : (⟨S1x20, .f32⟩ : BufTy).Contents (Elt F) → (⟨S20x1, .f32⟩ : BufTy).Contents (Elt F)),
    binary main_v50 main_v51 main_v52 ((fun l r => Host.dotGeneral dot_S100000x20_S20x1_S100000x1_1_0_0_1_n_n none l r) : (⟨S100000x20, .f32⟩ : BufTy).Contents (Elt F) → (⟨S20x1, .f32⟩ : BufTy).Contents (Elt F) → (⟨S100000x1, .f32⟩ : BufTy).Contents (Elt F)),
    unary main_arg11 main_v53 (broadcastInDim S1x1 ![1] bcast_S1_S1x1_1 : (⟨S1, .f32⟩ : BufTy).Contents (Elt F) → (⟨S1x1, .f32⟩ : BufTy).Contents (Elt F)),
    unary main_v53 main_v54 (broadcastInDim S100000x1 ![0, 1] bcast_S1x1_S100000x1_0_1 : (⟨S1x1, .f32⟩ : BufTy).Contents (Elt F) → (⟨S100000x1, .f32⟩ : BufTy).Contents (Elt F)),
    binary main_v52 main_v54 main_v55 (addf : (⟨S100000x1, .f32⟩ : BufTy).Contents (Elt F) → (⟨S100000x1, .f32⟩ : BufTy).Contents (Elt F) → (⟨S100000x1, .f32⟩ : BufTy).Contents (Elt F)) ]

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., unary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., unary_bufs_sub ..,
    unary_bufs_sub .., binary_bufs_sub .., unary_bufs_sub .., binary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..⟩

end Cert.ReferenceIdeal.RefRun

end
-- ==== Proof.RefMain.lean ====
/-
  The reference program IS the sequence of its 78 host operations: its two parts and the bodies of the functions it calls
  (elu, the two selects elu calls, relu) unfolded at their calls and sequencing reassociated, both sides are one chain of
  host steps. Hence every weakly fair execution terminates with each buffer at the fold of the operations over the launch
  contents.
-/
import proofs.«103470_j75625784148347_1_alg».proof.Proof.Gen.ReferenceIdeal
import proofs.«103470_j75625784148347_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 4096 in
/-- @main is that straight line: its two parts and the called functions' bodies unfolded, sequencing reassociated. -/
theorem main_eq (c : Dev nD) : main (F := F) c = seq ops := by
  simp only [main, main_part0, main_part1, fn_elu.body, fn_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference program's run. Its @main is a straight line of 78 host operations once the three functions it calls are
  written out at their calls (elu's fifteen, with the two selects it calls in turn; relu's three): the list `ops`. The
  program IS the sequence of those operations, so every weakly fair execution terminates with each buffer at the fold of the
  operations over the launch contents. Read at the result buffer that fold is the reference's result term `refOut` of the
  twelve arguments; read at an argument's buffer it is the argument, which no operation writes.
-/
import proofs.«103470_j75625784148347_1_alg».proof.Proof.Gen.ReferenceIdeal
import proofs.«103470_j75625784148347_1_alg».proof.Proof.RefTerm
import proofs.«103470_j75625784148347_1_alg».proof.Proof.RefOps
import proofs.«103470_j75625784148347_1_alg».proof.Proof.RefMain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.expm1 in
set_option maxRecDepth 16384 in
set_option maxHeartbeats 1600000 in
/-- The fold at the result buffer is the reference's result term of the arguments' contents: each operation's result
    decides whether the buffer read is the one it writes, all by computation; the gathers, scatter-adds and products stay
    folded meanwhile. -/
theorem out_eq (V : Valuation τ sig (Elt F)) :
    after ops V (main_v55 : DevRef τ sig)
      = RefValue.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  simp only [after_cons, after_nil]
  rfl

/-- No operation writes an argument's buffer: the fold there is the launch contents. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) := by
  simp only [after_cons, after_nil]
  refine ⟨rfl, rfl, rfl, rfl, rfl, rfl, rfl, rfl, rfl, rfl, rfl, rfl⟩

/-- The run with its result named and its arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = RefValue.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      obtain ⟨a0, a1, a2, a3, a4, a5, a6, a7, a8, a9, a10, a11⟩ := arg_eq (F := F) (launchContents m c)
      exact ⟨(h c main_v55).trans (out_eq _), (h c main_arg0).trans a0, (h c main_arg1).trans a1, (h c main_arg2).trans a2,
        (h c main_arg3).trans a3, (h c main_arg4).trans a4, (h c main_arg5).trans a5, (h c main_arg6).trans a6,
        (h c main_arg7).trans a7, (h c main_arg8).trans a8, (h c main_arg9).trans a9, (h c main_arg10).trans a10,
        (h c main_arg11).trans a11⟩)
    (run_main m ρ)

end Cert.ReferenceIdeal.RefRun

end
-- ==== Proof.RefValue.lean ====
/-
  The reference program's two dense stretches, read entry by entry, are the specification's.

  Every stage is a composition of operations that act on an array one index at a time, so each is read at an index
  (r, j) and compared there with the specification's formula.

  * A plain product a · wᵀ. The program transposes the weight first and contracts the second axis of a with the first
    axis of wᵀ; at (r, j) that is Σ_c a(r, c) · wᵀ(c, j), and the transpose read at (c, j) is w(j, c): the sum is
    Σ_c a(r, c) · w(j, c), the specification's entry of a · wᵀ.
  * A bias. The vector b of length n is first laid out as the single row of a 1 × n matrix and that row is then repeated
    down the node axis. Read at (r, j) the result is b(j), whatever r is; when n = 1 the only column is column 0.
  * A scalar repeated over a whole array reads, at every index, the real number its float word stands for: +0.0 for the
    comparisons and the relu, 1.0 for the factor in front of the exponential.

  With these, the first convolution at (r, j) is ((agg · w_relᵀ)(r, j) + b(j)) + (x · w_rootᵀ)(r, j), which is the
  specification's (agg · w_relᵀ)(r, j) + (x · w_rootᵀ)(r, j) + b(j) because addition of extended reals is commutative
  and associative. The activation is written in the guarded way, y where y > 0 and 1 · (exp(y') − 1) elsewhere with
  y' = 0 where y > 0 and y' = y elsewhere; that is elu(y) on every extended real. The second convolution is read as the
  first, and the head is a dense layer followed by the larger of the entry and +0.0, then a dense layer with one output
  column whose bias is the single entry of its bias vector.
-/
import proofs.«103470_j75625784148347_1_alg».proof.Proof.Gen.ReferenceIdeal
import proofs.«103470_j75625784148347_1_alg».proof.Proof.RefTerm
import proofs.«103470_j75625784148347_1_alg».proof.Proof.Spec
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

set_option maxRecDepth 16384

noncomputable section

open scoped BigOperators

namespace Cert.ReferenceIdeal.RefValue

open Idealize.ShloMosaic Idealize.ShloMosaic.ValueIdx
open Cert.ReferenceIdeal Cert.ReferenceIdeal.Gen

/-- A vector laid out as the row of a one-row matrix, the row then repeated down the first axis, reads at (r, j) the
    vector's entry j. When the vector has a single entry the only column is column 0. -/
private theorem bias_apply {α : Type} {M n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2)) (r : Fin M) (j : Fin n) :
    broadcastInDim ⟨2, ![M, n]⟩ ![0, 1] h2 (broadcastInDim ⟨2, ![1, n]⟩ ![1] h1 b) (ix2 r j) = b (ix1 j) := by
  refine (broadcastInDim_apply _ h2 _ (ix2 r j) (ix2 0 j) ?_).trans ?_
  · intro a
    match a with
    | ⟨0, _⟩ => rfl
    | ⟨1, _⟩ =>
      show j.val = if n = 1 then 0 else j.val
      split
      · next h => subst h; exact Nat.lt_one_iff.1 j.isLt
      · rfl
  · refine broadcastInDim_apply _ h1 _ (ix2 0 j) (ix1 j) ?_
    intro a
    match a with
    | ⟨0, _⟩ =>
      show j.val = if n = 1 then 0 else j.val
      split
      · next h => subst h; exact Nat.lt_one_iff.1 j.isLt
      · rfl

/-- The plain product of a with the transposed weight, at (r, j), is Σ_c a(r, c) · w(j, c): the entry of a · wᵀ. -/
private theorem dotT_apply {m k n : Nat} (A : FVec Ideal ⟨2, ![m, k]⟩ .f32) (w : FVec Ideal ⟨2, ![n, k]⟩ .f32)
    (h : (⟨2, ![n, k]⟩ : Shape).Transposes [1, 0] ⟨2, ![k, n]⟩) (r : Fin m) (j : Fin n) :
    Host.dotGeneral (DotDims.plain m k n) none A (transpose ⟨2, ![k, n]⟩ [1, 0] w h) (ix2 r j) = Cert.Spec.mulT A w r j := by
  refine (StackMember.dotGeneral_plain_apply none A _ r j).trans ?_
  unfold Cert.Spec.mulT
  refine Finset.sum_congr rfl fun c _ => ?_
  rw [transpose_ix2_apply]

/-- The first convolution at (r, j): ((agg·w_relᵀ)(r, j) + b(j)) + (x·w_rootᵀ)(r, j), regrouped. -/
private theorem conv1_apply (x agg : FVec Ideal S100000x64 .f32) (wrel : FVec Ideal S128x64 .f32) (b : FVec Ideal S128 .f32)
    (wroot : FVec Ideal S128x64 .f32) (r : Fin 100000) (j : Fin 128) :
    conv1 x agg wrel b wroot (ix2 r j) = Cert.Spec.convAt agg x wrel wroot (fun j => b (ix1 j)) r j := by
  have e1 := dotT_apply agg wrel transposes_S128x64_S64x128_1_0 r j
  have e2 := dotT_apply x wroot transposes_S128x64_S64x128_1_0 r j
  have e3 := bias_apply (M := 100000) b bcast_S128_S1x128_1 bcast_S1x128_S100000x128_0_1 r j
  rw [← Cert.Spec.convAt_regroup, ← e1, ← e2, ← e3]
  rfl

/-- The guarded activation at an index is elu of the entry there. -/
private theorem eluH_apply (h : FVec Ideal S100000x128 .f32) (i : S100000x128.Idx) :
    eluH h i = Cert.Spec.elu (h i) := by
  rw [← Cert.Spec.elu_eq_guarded]
  rfl

/-- The second convolution at (r, j), read as the first. -/
private theorem conv2_apply (h agg : FVec Ideal S100000x128 .f32) (wrel : FVec Ideal S128x128 .f32) (b : FVec Ideal S128 .f32)
    (wroot : FVec Ideal S128x128 .f32) (r : Fin 100000) (j : Fin 128) :
    conv2 h agg wrel b wroot (ix2 r j) = Cert.Spec.conv agg h wrel wroot (fun j => b (ix1 j)) (ix2 r j) := by
  have e1 := dotT_apply agg wrel transposes_S128x128_S128x128_1_0 r j
  have e2 := dotT_apply h wroot transposes_S128x128_S128x128_1_0 r j
  have e3 := bias_apply (M := 100000) b bcast_S128_S1x128_1 bcast_S1x128_S100000x128_0_1 r j
  rw [Cert.Spec.conv_ix2, ← Cert.Spec.convAt_regroup, ← e1, ← e2, ← e3]
  rfl

/-- The head's first dense layer at (r, j): the larger of (h₂·w_fc1ᵀ)(r, j) + b_fc1(j) and +0.0. -/
private theorem dense1_apply (h2 : FVec Ideal S100000x128 .f32) (wfc1 : FVec Ideal S20x128 .f32) (bfc1 : FVec Ideal S20 .f32)
    (r : Fin 100000) (j : Fin 20) :
    dense1 h2 wfc1 bfc1 (ix2 r j) = Cert.Spec.relu (Cert.Spec.lin h2 wfc1 (fun j => bfc1 (ix1 j))) (ix2 r j) := by
  have e1 := dotT_apply h2 wfc1 transposes_S20x128_S128x20_1_0 r j
  have e3 := bias_apply (M := 100000) bfc1 bcast_S20_S1x20_1 bcast_S1x20_S100000x20_0_1 r j
  rw [Cert.Spec.relu_ix2, Cert.Spec.lin_ix2, ← e1, ← e3]
  rfl

/-- The head's second dense layer at (r, 0): (a·w_fc2ᵀ)(r, 0) plus the single entry of its bias vector. -/
private theorem dense2_apply (a : FVec Ideal S100000x20 .f32) (wfc2 : FVec Ideal S1x20 .f32) (bfc2 : FVec Ideal S1 .f32)
    (r : Fin 100000) (q : Fin 1) :
    dense2 a wfc2 bfc2 (ix2 r q) = Cert.Spec.lin a wfc2 (fun _ => bfc2 (ix1 0)) (ix2 r q) := by
  obtain rfl : q = 0 := Subsingleton.elim _ _
  have e1 := dotT_apply a wfc2 transposes_S1x20_S20x1_1_0 r 0
  have e3 := bias_apply (M := 100000) bfc2 bcast_S1_S1x1_1 bcast_S1x1_S100000x1_0_1 r 0
  rw [Cert.Spec.lin_ix2, ← e1, ← e3]
  rfl

/-- The reference's first layer, elu of (agg·w_relᵀ + b) + x·w_rootᵀ, is the specification's first layer. -/
theorem hidden_eq (x agg : FVec Ideal S100000x64 .f32) (wrel : FVec Ideal S128x64 .f32) (b : FVec Ideal S128 .f32)
    (wroot : FVec Ideal S128x64 .f32) :
    eluH (conv1 x agg wrel b wroot) = Cert.Spec.layer1 agg x wrel wroot (fun j => b (ix1 j)) := by
  funext i
  obtain ⟨r, j, rfl⟩ : ∃ (r : Fin 100000) (j : Fin 128), i = ix2 r j := ⟨i 0, i 1, eq_ix2 i⟩
  rw [eluH_apply, conv1_apply, Cert.Spec.layer1_ix2]

/-- The reference's second convolution and head are the specification's head. -/
theorem head_eq (h agg : FVec Ideal S100000x128 .f32) (wrel : FVec Ideal S128x128 .f32) (b : FVec Ideal S128 .f32)
    (wroot : FVec Ideal S128x128 .f32) (wfc1 : FVec Ideal S20x128 .f32) (bfc1 : FVec Ideal S20 .f32)
    (wfc2 : FVec Ideal S1x20 .f32) (bfc2 : FVec Ideal S1 .f32) :
    dense2 (dense1 (conv2 h agg wrel b wroot) wfc1 bfc1) wfc2 bfc2
      = Cert.Spec.head agg h wrel wroot (fun j => b (ix1 j)) wfc1 (fun j => bfc1 (ix1 j)) wfc2 (bfc2 (ix1 0)) := by
  have hc : conv2 h agg wrel b wroot = Cert.Spec.conv agg h wrel wroot (fun j => b (ix1 j)) := by
    funext i
    obtain ⟨r, j, rfl⟩ : ∃ (r : Fin 100000) (j : Fin 128), i = ix2 r j := ⟨i 0, i 1, eq_ix2 i⟩
    exact conv2_apply h agg wrel b wroot r j
  have hd : ∀ h2 : FVec Ideal S100000x128 .f32,
      dense1 h2 wfc1 bfc1 = Cert.Spec.relu (Cert.Spec.lin h2 wfc1 (fun j => bfc1 (ix1 j))) := by
    intro h2
    funext i
    obtain ⟨r, j, rfl⟩ : ∃ (r : Fin 100000) (j : Fin 20), i = ix2 r j := ⟨i 0, i 1, eq_ix2 i⟩
    exact dense1_apply h2 wfc1 bfc1 r j
  funext i
  obtain ⟨r, q, rfl⟩ : ∃ (r : Fin 100000) (q : Fin 1), i = ix2 r q := ⟨i 0, i 1, eq_ix2 i⟩
  rw [dense2_apply, hd, hc]
  rfl

end Cert.ReferenceIdeal.RefValue

end
-- ==== Proof.Bridge.lean ====
/-
  The two programs' results are one function of the twelve arguments.

  The reference's result term is its second convolution and head applied to the hidden features and their neighbour
  sums, the hidden features being its first layer applied to x and x's neighbour sums. Each of those two stages is the
  specification's (`hidden_eq`, `head_eq`), and the neighbour sums are the SAME host operations in both programs — the
  same gather and scatter-add over the same index columns cut from the edge list — so they are the same function, with
  nothing about a gather or a scatter-add ever opened.
-/
import proofs.«103470_j75625784148347_1_alg».proof.Proof.Spec
import proofs.«103470_j75625784148347_1_alg».proof.Proof.KernelAgg
import proofs.«103470_j75625784148347_1_alg».proof.Proof.RefTerm
import proofs.«103470_j75625784148347_1_alg».proof.Proof.RefValue

set_option maxRecDepth 16384

noncomputable section

namespace Cert.Bridge

open Idealize.ShloMosaic Idealize.ShloMosaic.ValueIdx

/-- The neighbour sums of a 64-column matrix: one function in both programs. -/
theorem agg64_eq (x : FVec Ideal Cert.ReferenceIdeal.S100000x64 .f32) (ei : IVec Cert.ReferenceIdeal.S2x800000 32) :
    Cert.ReferenceIdeal.RefValue.agg64 x ei = Cert.KernelIdeal.Val.agg64 x ei := rfl

/-- The neighbour sums of a 128-column matrix: one function in both programs. -/
theorem agg128_eq (h : FVec Ideal Cert.ReferenceIdeal.S100000x128 .f32) (ei : IVec Cert.ReferenceIdeal.S2x800000 32) :
    Cert.ReferenceIdeal.RefValue.agg128 h ei = Cert.KernelIdeal.Val.agg128 h ei := rfl

/-- The reference's result is the head of the hidden features and their neighbour sums, the hidden features the first
    layer of x and its neighbour sums: the kernel program's result, term for term. -/
theorem refOut_eq (x : FVec Ideal Cert.ReferenceIdeal.S100000x64 .f32) (ei : IVec Cert.ReferenceIdeal.S2x800000 32)
    (w1rel : FVec Ideal Cert.ReferenceIdeal.S128x64 .f32) (b1 : FVec Ideal Cert.ReferenceIdeal.S128 .f32)
    (w1root : FVec Ideal Cert.ReferenceIdeal.S128x64 .f32) (w2rel : FVec Ideal Cert.ReferenceIdeal.S128x128 .f32)
    (b2 : FVec Ideal Cert.ReferenceIdeal.S128 .f32) (w2root : FVec Ideal Cert.ReferenceIdeal.S128x128 .f32)
    (wfc1 : FVec Ideal Cert.ReferenceIdeal.S20x128 .f32) (bfc1 : FVec Ideal Cert.ReferenceIdeal.S20 .f32)
    (wfc2 : FVec Ideal Cert.ReferenceIdeal.S1x20 .f32) (bfc2 : FVec Ideal Cert.ReferenceIdeal.S1 .f32) :
    Cert.ReferenceIdeal.RefValue.refOut x ei w1rel b1 w1root w2rel b2 w2root wfc1 bfc1 wfc2 bfc2
      = Cert.Spec.head
          (Cert.KernelIdeal.Val.agg128 (F := Ideal) (Cert.Spec.layer1 (Cert.KernelIdeal.Val.agg64 (F := Ideal) x ei) x w1rel w1root (fun j => b1 (ix1 j))) ei)
          (Cert.Spec.layer1 (Cert.KernelIdeal.Val.agg64 (F := Ideal) x ei) x w1rel w1root (fun j => b1 (ix1 j)))
          w2rel w2root (fun j => b2 (ix1 j)) wfc1 (fun j => bfc1 (ix1 j)) wfc2 (bfc2 (ix1 0)) := by
  unfold Cert.ReferenceIdeal.RefValue.refOut Cert.ReferenceIdeal.RefValue.hidden
  rw [Cert.ReferenceIdeal.RefValue.hidden_eq, Cert.ReferenceIdeal.RefValue.head_eq, agg64_eq, agg128_eq]

end Cert.Bridge

end
-- ==== Proof.lean ====
/-
  A two-layer graph convolution with a dense head, computed two ways.

  The kernel program tiles the 100000 nodes into 20 blocks of 5000 rows and runs two fused regions: the first computes
  elu(agg·w_relᵀ + x·w_rootᵀ + b) per block, the second the second convolution and the two dense layers of the head per
  block; the neighbour sums agg (a gather by source and a scatter-add by destination) are host operations before each
  region. The reference computes the same layers on whole arrays, adding the bias before the root term, spelling elu as
  1 · expm1 of a guarded argument, and calling relu and the selects as functions.

  At the ideal values the two are one function of the twelve arguments:
    * every layer is row-local in the node axis, so the blocks of the whole-array function are the function of the blocks
      (the two region modules), and the 20 blocks tile the array;
    * a product into a zero accumulator and the host's product are the same sum over the contracted coordinate, a change of
      float format is the identity, and the transposes match entry by entry;
    * (a + b) + c = (a + c) + b on the extended reals with no finiteness needed, and expm1 y = exp y − 1 by definition,
      so both spellings of elu agree everywhere, −∞ included (the specification module);
    * the neighbour sums are the same host operations on both sides and are carried as one function, never opened.
  The precondition (finite inputs) is not used. The idealization rewrote nothing, so `preserves` is trivial; the kernel
  programs' frames are the generated ones, and the reference's frame is its run with the result dropped.
-/
import proofs.«103470_j75625784148347_1_alg».proof.Defs
import proofs.«103470_j75625784148347_1_alg».proof.Proof.Gen.Kernel
import proofs.«103470_j75625784148347_1_alg».proof.Proof.Gen.Kernel.Frame
import proofs.«103470_j75625784148347_1_alg».proof.Proof.Gen.KernelIdeal
import proofs.«103470_j75625784148347_1_alg».proof.Proof.Gen.KernelIdeal.Frame
import proofs.«103470_j75625784148347_1_alg».proof.Proof.Gen.ReferenceIdeal
import proofs.«103470_j75625784148347_1_alg».proof.Proof.Gen.Pre_finite_inputs
import proofs.«103470_j75625784148347_1_alg».proof.Proof.KernelRun
import proofs.«103470_j75625784148347_1_alg».proof.Proof.KernelHost
import proofs.«103470_j75625784148347_1_alg».proof.Proof.RefRun
import proofs.«103470_j75625784148347_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the head of the hidden features and their neighbour
    sums: the kernel program by its run read at the last boundary, the reference by its run and the bridge. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Val.W4_out m ρ c), (h c).2⟩)
      (Cert.KernelIdeal.Gen.run_named (F := Ideal) m ρ), ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11⟩ := hagree c
  rw [e0, e1, e2, e3, e4, e5, e6, e7, e8, e9, e10, e11]
  exact Cert.Bridge.refOut_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
